-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S6x1024x1024 : Shape := ⟨3, ![6, 1024, 1024]⟩
abbrev S6x1024 : Shape := ⟨2, ![6, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S6x1024x1024 : S_.BroadcastsInDim S6x1024x1024 (![] : Fin 0 → Fin S6x1024x1024.rank)
  reducesTo_S6x1024x1024_S_d0_1_2 : S6x1024x1024.ReducesTo [0, 1, 2] S_
  bcast_S_S6x1024 : S_.BroadcastsInDim S6x1024 (![] : Fin 0 → Fin S6x1024.rank)
  reducesTo_S6x1024_S_d0_1 : S6x1024.ReducesTo [0, 1] S_

variable [Facts]

def fn_part1 {F : FTy → Type} [FloatOps F] (main_arg4 : FVec F S6x1024 .f32) (main_arg5 : FVec F S6x1024x1024 .f32) (main_v13 : IVec S_ 1) (main_v16 : IVec S6x1024x1024 1) : IVec S_ 1 :=
  let main_c_5 : IVec S_ 1 := constantI S_ 1 1#1
  let main_v17 : IVec S_ 1 := (fun x v => Host.reduce IntOp.andi x v reducesTo_S6x1024x1024_S_d0_1_2 h_S_) main_v16 main_c_5
  let main_v18 : IVec S_ 1 := andi main_v13 main_v17
  let main_v19 : FVec F S6x1024 .f32 := Host.absf main_arg4
  let main_cst_6 : FVec F S_ .f32 := constant S_ .f32 0x7F800000#32
  let main_v20 : FVec F S6x1024 .f32 := broadcastInDim S6x1024 ![] bcast_S_S6x1024 main_cst_6
  let main_v21 : IVec S6x1024 1 := cmpf .olt main_v19 main_v20
  let main_c_7 : IVec S_ 1 := constantI S_ 1 1#1
  let main_v22 : IVec S_ 1 := (fun x v => Host.reduce IntOp.andi x v reducesTo_S6x1024_S_d0_1 h_S_) main_v21 main_c_7
  let main_v23 : IVec S_ 1 := andi main_v18 main_v22
  let main_v24 : FVec F S6x1024x1024 .f32 := Host.absf main_arg5
  let main_cst_8 : FVec F S_ .f32 := constant S_ .f32 0x7F800000#32
  let main_v25 : FVec F S6x1024x1024 .f32 := broadcastInDim S6x1024x1024 ![] bcast_S_S6x1024x1024 main_cst_8
  let main_v26 : IVec S6x1024x1024 1 := cmpf .olt main_v24 main_v25
  let main_c_9 : IVec S_ 1 := constantI S_ 1 1#1
  let main_v27 : IVec S_ 1 := (fun x v => Host.reduce IntOp.andi x v reducesTo_S6x1024x1024_S_d0_1_2 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S4096x1024 .f32) (main_arg3 : FVec F S6x1024x1024 .f32) (main_arg4 : FVec F S6x1024 .f32) (main_arg5 : FVec F S6x1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S6x1024x1024 .f32 := Host.absf main_arg3
  let main_cst_4 : FVec F S_ .f32 := constant S_ .f32 0x7F800000#32
  let main_v15 : FVec F S6x1024x1024 .f32 := broadcastInDim S6x1024x1024 ![] bcast_S_S6x1024x1024 main_cst_4
  let main_v16 : IVec S6x1024x1024 1 := cmpf .olt main_v14 main_v15
  fn_part1 (F := F) main_arg4 main_arg5 main_v13 main_v16
-- ==== Kernel.lean ====
abbrev S4096x1024 : Shape := ⟨2, ![4096, 1024]⟩
abbrev S6x1024x1024 : Shape := ⟨3, ![6, 1024, 1024]⟩
abbrev S6x1024 : Shape := ⟨2, ![6, 1024]⟩
abbrev S1024x6x1024 : Shape := ⟨3, ![1024, 6, 1024]⟩
abbrev S1024x6144 : Shape := ⟨2, ![1024, 6144]⟩
abbrev S1x6144 : Shape := ⟨2, ![1, 6144]⟩
abbrev S128x1024 : Shape := ⟨2, ![128, 1024]⟩
abbrev S1024x1024 : Shape := ⟨2, ![1024, 1024]⟩
abbrev S1x1024 : Shape := ⟨2, ![1, 1024]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S6x1024x1024, .f32⟩
  | .hbm, ⟨4, _⟩ => ⟨S6x1024, .f32⟩
  | .hbm, ⟨5, _⟩ => ⟨S6x1024x1024, .f32⟩
  | .hbm, ⟨6, _⟩ => ⟨S1024x6x1024, .f32⟩
  | .hbm, ⟨7, _⟩ => ⟨S1024x6144, .f32⟩
  | .hbm, ⟨8, _⟩ => ⟨S1024x6144, .bf16⟩
  | .hbm, ⟨9, _⟩ => ⟨S1024x6x1024, .f32⟩
  | .hbm, ⟨10, _⟩ => ⟨S1024x6144, .f32⟩
  | .hbm, ⟨11, _⟩ => ⟨S1024x6144, .bf16⟩
  | .hbm, ⟨12, _⟩ => ⟨S1x6144, .f32⟩
  | .hbm, ⟨13, _⟩ => ⟨S4096x1024, .f32⟩
  | .hbm, ⟨14, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x6144, .bf16⟩
  | .local _ .vmem, ⟨7, _⟩ => ⟨S1024x6144, .bf16⟩
  | .local _ .vmem, ⟨8, _⟩ => ⟨S1x6144, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S6x1024x1024_S1024x6x1024_2_0_1 : S6x1024x1024.Transposes [2, 0, 1] S1024x6x1024
  shapeCasts_S1024x6x1024_S1024x6144 : S1024x6x1024.ShapeCasts S1024x6144
  bitsLt_bf16_f32 : FTy.bits .bf16 < FTy.bits .f32
  shapeCasts_S6x1024_S1x6144 : S6x1024.ShapeCasts S1x6144
  inb_S128x1024_S128x1024_0_0 : ∀ a, (![0, 0] : Fin 2 → Nat) a + S128x1024.size a ≤ S128x1024.size a
  h_S128x1024 : 0 < S128x1024.numel
  inb_S1024x6144_S1024x1024_0_0 : ∀ a, (![0, 0] : Fin 2 → Nat) a + S1024x1024.size a ≤ S1024x6144.size a
  h_S1024x1024 : 0 < S1024x1024.numel
  shapeCasts_S1024x1024_S1024x1024 : S1024x1024.ShapeCasts S1024x1024
  inb_S1x6144_S1x1024_0_0 : ∀ a, (![0, 0] : Fin 2 → Nat) a + S1x1024.size a ≤ S1x6144.size a
  h_S1x1024 : 0 < S1x1024.numel
  shapeCasts_S1x1024_S1x1024 : S1x1024.ShapeCasts S1x1024
  broadcasts_S1x1024_S128x1024 : S1x1024.Broadcasts S128x1024
  inb_S1024x6144_S1024x1024_0_1024 : ∀ a, (![0, 1024] : Fin 2 → Nat) a + S1024x1024.size a ≤ S1024x6144.size a
  inb_S1x6144_S1x1024_0_1024 : ∀ a, (![0, 1024] : Fin 2 → Nat) a + S1x1024.size a ≤ S1x6144.size a
  inb_S1024x6144_S1024x1024_0_2048 : ∀ a, (![0, 2048] : Fin 2 → Nat) a + S1024x1024.size a ≤ S1024x6144.size a
  inb_S1x6144_S1x1024_0_2048 : ∀ a, (![0, 2048] : Fin 2 → Nat) a + S1x1024.size a ≤ S1x6144.size a
  inb_S1024x6144_S1024x1024_0_3072 : ∀ a, (![0, 3072] : Fin 2 → Nat) a + S1024x1024.size a ≤ S1024x6144.size a
  inb_S1x6144_S1x1024_0_3072 : ∀ a, (![0, 3072] : Fin 2 → Nat) a + S1x1024.size a ≤ S1x6144.size a
  inb_S1024x6144_S1024x1024_0_4096 : ∀ a, (![0, 4096] : Fin 2 → Nat) a + S1024x1024.size a ≤ S1024x6144.size a
  inb_S1x6144_S1x1024_0_4096 : ∀ a, (![0, 4096] : Fin 2 → Nat) a + S1x1024.size a ≤ S1x6144.size a
  inb_S1024x6144_S1024x1024_0_5120 : ∀ a, (![0, 5120] : Fin 2 → Nat) a + S1024x1024.size a ≤ S1024x6144.size a
  inb_S1x6144_S1x1024_0_5120 : ∀ a, (![0, 5120] : Fin 2 → Nat) a + S1x1024.size a ≤ S1x6144.size a
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x6144.size a ≤ S1024x6144.size a
  hwx0_3 : ∀ i : grid0.Coords, EltTy.bits .bf16 = 32 ∨ (Rect.block (s := S1024x6144) S1024x6144.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x6144.size a ≤ S1024x6144.size a
  hwx0_4 : ∀ i : grid0.Coords, EltTy.bits .bf16 = 32 ∨ (Rect.block (s := S1024x6144) S1024x6144.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x6144.size a ≤ S1x6144.size a
  hwx0_5 : ∀ i : grid0.Coords, EltTy.bits .f32 = 32 ∨ (Rect.block (s := S1x6144) S1x6144.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x6144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x6144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x6144.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S6x1024x1024 : Shape := ⟨3, ![6, 1024, 1024]⟩
abbrev S6x1024 : Shape := ⟨2, ![6, 1024]⟩
abbrev S6x1024x4096 : Shape := ⟨3, ![6, 1024, 4096]⟩
abbrev S6x4096x1024 : Shape := ⟨3, ![6, 4096, 1024]⟩
abbrev S6x1x1024 : Shape := ⟨3, ![6, 1, 1024]⟩
abbrev S1x4096x1024 : Shape := ⟨3, ![1, 4096, 1024]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S6x1024x1024, .f32⟩
  | .hbm, ⟨4, _⟩ => ⟨S6x1024, .f32⟩
  | .hbm, ⟨5, _⟩ => ⟨S6x1024x1024, .f32⟩
  | .hbm, ⟨6, _⟩ => ⟨S6x1024x4096, .f32⟩
  | .hbm, ⟨7, _⟩ => ⟨S6x4096x1024, .f32⟩
  | .hbm, ⟨8, _⟩ => ⟨S6x1x1024, .f32⟩
  | .hbm, ⟨9, _⟩ => ⟨S6x4096x1024, .f32⟩
  | .hbm, ⟨10, _⟩ => ⟨S6x4096x1024, .f32⟩
  | .hbm, ⟨11, _⟩ => ⟨S6x1024x4096, .f32⟩
  | .hbm, ⟨12, _⟩ => ⟨S6x4096x1024, .f32⟩
  | .hbm, ⟨13, _⟩ => ⟨S6x4096x1024, .f32⟩
  | .hbm, ⟨14, _⟩ => ⟨S1x4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S1x4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S1x4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S1x4096x1024, .f32⟩
  | .hbm, ⟨45, _⟩ => ⟨S4096x1024, .f32⟩
  | .hbm, ⟨46, _⟩ => ⟨S4096x1024, .f32⟩
  | .hbm, ⟨47, _⟩ => ⟨S1x4096x1024, .f32⟩
  | .hbm, ⟨48, _⟩ => ⟨S4096x1024, .f32⟩
  | .hbm, ⟨49, _⟩ => ⟨S1x4096x1024, .f32⟩
  | .hbm, ⟨50, _⟩ => ⟨S4096x1024, .f32⟩
  | .hbm, ⟨51, _⟩ => ⟨S4096x1024, .f32⟩
  | .hbm, ⟨52, _⟩ => ⟨S1x4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]

class Facts₀ : Prop where
  transposes_S6x1024x4096_S6x4096x1024_0_2_1 : S6x1024x4096.Transposes [0, 2, 1] S6x4096x1024
  bcast_S6x1024_S6x1x1024_0_2 : S6x1024.BroadcastsInDim S6x1x1024 (![0, 2] : Fin 2 → Fin S6x1x1024.rank)
  bcast_S6x1x1024_S6x4096x1024_0_1_2 : S6x1x1024.BroadcastsInDim S6x4096x1024 (![0, 1, 2] : Fin 3 → Fin S6x4096x1024.rank)
  slices_S6x4096x1024_S1x4096x1024_0_0_0 : S6x4096x1024.Slices ![0, 0, 0] S1x4096x1024
  shapeCasts_S1x4096x1024_S4096x1024 : S1x4096x1024.ShapeCasts S4096x1024
  bcast_S_S4096x1024 : S_.BroadcastsInDim S4096x1024 (![] : Fin 0 → Fin S4096x1024.rank)
  slices_S6x4096x1024_S1x4096x1024_1_0_0 : S6x4096x1024.Slices ![1, 0, 0] S1x4096x1024
  slices_S6x4096x1024_S1x4096x1024_2_0_0 : S6x4096x1024.Slices ![2, 0, 0] S1x4096x1024
  slices_S6x4096x1024_S1x4096x1024_3_0_0 : S6x4096x1024.Slices ![3, 0, 0] S1x4096x1024
  slices_S6x4096x1024_S1x4096x1024_4_0_0 : S6x4096x1024.Slices ![4, 0, 0] S1x4096x1024
  slices_S6x4096x1024_S1x4096x1024_5_0_0 : S6x4096x1024.Slices ![5, 0, 0] S1x4096x1024
  dot_S6x1024x1024_S4096x1024_S6x1024x4096_2_1_01_0_n_n_wf : DotDims.WF S6x1024x1024 S4096x1024 S6x1024x4096 [2] [1] [0, 1] [0] [] []

variable [Facts₀]

def dot_S6x1024x1024_S4096x1024_S6x1024x4096_2_1_01_0_n_n : DotDims S6x1024x1024 S4096x1024 S6x1024x4096 where
  lhsContracting := [2]
  rhsContracting := [1]
  lhsNonContracting := [0, 1]
  rhsNonContracting := [0]
  lhsBatch := []
  rhsBatch := []
  wf := dot_S6x1024x1024_S4096x1024_S6x1024x4096_2_1_01_0_n_n_wf

class Facts : Prop extends Facts₀ where

variable [Facts]
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.GateBlock.lean ====
/-
  One gate of the cell on one block of 128 batch rows, read at an index of the block, at the ideal values.

  A gate's input projection on a block is a matrix product of the block of `x` (128 × 1024) with a 1024 × 1024 slab of
  weights, plus a bias row broadcast down the 128 rows; its recurrent projection is the product of the block of `h`
  with a slab of recurrent weights. Read at `(p, q)` the products are sums over the 1024 input features, and the bias
  is the row's entry at `q`. The three shapes a gate takes — the logistic of the pre-activation, its hyperbolic
  tangent, and the product of the two projections — are stated once each, for arbitrary operands.
-/
import Idealize.ShloMosaic.PureOps.Ideal.Laws
import Idealize.ShloMosaic.Lib.ValueIdx
import Idealize.ShloMosaic.Lib.Pipeline.Value
import proofs.«120865_j65962107732595_1_alg».proof.Proof.LibPlainDot

noncomputable section

namespace Cert.GateBlock

open Idealize.ShloMosaic Idealize.ShloMosaic.ValueIdx

/-- A block of 128 batch rows by 1024 units. -/
abbrev Blk : Shape := ⟨2, ![128, 1024]⟩
/-- One gate's slab of weights: input feature by unit. -/
abbrev Slab : Shape := ⟨2, ![1024, 1024]⟩
/-- One gate's bias row. -/
abbrev BiasRow : Shape := ⟨2, ![1, 1024]⟩

/-- The bias row broadcast down the block, read at `(p, q)`, is the row's entry at `q`. -/
theorem bias_apply (bk : FVec Ideal BiasRow .f32) (hs : BiasRow.ShapeCasts BiasRow) (hb : BiasRow.Broadcasts Blk)
    (p : Fin 128) (q : Fin 1024) :
    broadcastTo Blk (shapeCast BiasRow bk hs) hb (ix2 p q) = bk (ix2 (0 : Fin 1) q) := by
  rw [shapeCast_self]
  exact broadcastTo_apply bk hb (ix2 p q) (ix2 (0 : Fin 1) q) (fun a => match a with
    | ⟨0, _⟩ => by show (0 : Nat) = if (1 : Nat) = 1 then 0 else _; rw [if_pos rfl]
    | ⟨1, _⟩ => by show q.val = if (1024 : Nat) = 1 then 0 else q.val; rw [if_neg (by decide)])

/-- The block's product with a slab into the zero accumulator, read at `(p, q)`: the sum over the input features. -/
theorem prod_apply (l : FVec Ideal Blk .bf16) (w : FVec Ideal Slab .bf16) (p : Fin 128) (q : Fin 1024) :
    matmul (DotDims.plain 128 1024 1024) none l w (constant Blk .f32 0x00000000#32) (ix2 p q)
      = ∑ d : Fin 1024, l (ix2 p d) * w (ix2 d q) :=
  PlainDot.matmul_zero_apply 128 1024 1024 none l w (ix2 p q)

variable (l₁ l₂ : FVec Ideal Blk .bf16) (w₁ w₂ : FVec Ideal Slab .bf16) (bk : FVec Ideal BiasRow .f32)
  (hs : BiasRow.ShapeCasts BiasRow) (hb : BiasRow.Broadcasts Blk) (p : Fin 128) (q : Fin 1024)

/-- A gate's input projection on the block at `(p, q)`. -/
theorem in_apply :
    addf (matmul (DotDims.plain 128 1024 1024) none l₁ w₁ (constant Blk .f32 0x00000000#32))
        (broadcastTo Blk (shapeCast BiasRow bk hs) hb) (ix2 p q)
      = (∑ d : Fin 1024, l₁ (ix2 p d) * w₁ (ix2 d q)) + bk (ix2 (0 : Fin 1) q) := by
  show matmul (DotDims.plain 128 1024 1024) none l₁ w₁ (constant Blk .f32 0x00000000#32) (ix2 p q)
      + broadcastTo Blk (shapeCast BiasRow bk hs) hb (ix2 p q) = _
  rw [prod_apply, bias_apply]

/-- A gate's pre-activation on the block at `(p, q)`: input projection plus recurrent projection. -/
theorem pre_apply :
    addf (addf (matmul (DotDims.plain 128 1024 1024) none l₁ w₁ (constant Blk .f32 0x00000000#32))
        (broadcastTo Blk (shapeCast BiasRow bk hs) hb))
        (matmul (DotDims.plain 128 1024 1024) none l₂ w₂ (constant Blk .f32 0x00000000#32)) (ix2 p q)
      = ((∑ d : Fin 1024, l₁ (ix2 p d) * w₁ (ix2 d q)) + bk (ix2 (0 : Fin 1) q))
        + ∑ d : Fin 1024, l₂ (ix2 p d) * w₂ (ix2 d q) := by
  show addf (matmul (DotDims.plain 128 1024 1024) none l₁ w₁ (constant Blk .f32 0x00000000#32))
        (broadcastTo Blk (shapeCast BiasRow bk hs) hb) (ix2 p q)
      + matmul (DotDims.plain 128 1024 1024) none l₂ w₂ (constant Blk .f32 0x00000000#32) (ix2 p q) = _
  rw [in_apply, prod_apply]

/-- A logistic gate on the block at `(p, q)`. -/
theorem logistic_gate_apply :
    logistic (addf (addf (matmul (DotDims.plain 128 1024 1024) none l₁ w₁ (constant Blk .f32 0x00000000#32))
        (broadcastTo Blk (shapeCast BiasRow bk hs) hb))
        (matmul (DotDims.plain 128 1024 1024) none l₂ w₂ (constant Blk .f32 0x00000000#32))) (ix2 p q)
      = Ideal.logistic (((∑ d : Fin 1024, l₁ (ix2 p d) * w₁ (ix2 d q)) + bk (ix2 (0 : Fin 1) q))
        + ∑ d : Fin 1024, l₂ (ix2 p d) * w₂ (ix2 d q)) :=
  congrArg Ideal.logistic (pre_apply l₁ l₂ w₁ w₂ bk hs hb p q)

/-- A hyperbolic-tangent gate on the block at `(p, q)`. -/
theorem tanh_gate_apply :
    tanh (addf (addf (matmul (DotDims.plain 128 1024 1024) none l₁ w₁ (constant Blk .f32 0x00000000#32))
        (broadcastTo Blk (shapeCast BiasRow bk hs) hb))
        (matmul (DotDims.plain 128 1024 1024) none l₂ w₂ (constant Blk .f32 0x00000000#32))) (ix2 p q)
      = Ideal.tanh (((∑ d : Fin 1024, l₁ (ix2 p d) * w₁ (ix2 d q)) + bk (ix2 (0 : Fin 1) q))
        + ∑ d : Fin 1024, l₂ (ix2 p d) * w₂ (ix2 d q)) :=
  congrArg Ideal.tanh (pre_apply l₁ l₂ w₁ w₂ bk hs hb p q)

/-- The multiplicative gate on the block at `(p, q)`: input projection times recurrent projection. -/
theorem product_gate_apply :
    mulf (addf (matmul (DotDims.plain 128 1024 1024) none l₁ w₁ (constant Blk .f32 0x00000000#32))
        (broadcastTo Blk (shapeCast BiasRow bk hs) hb))
        (matmul (DotDims.plain 128 1024 1024) none l₂ w₂ (constant Blk .f32 0x00000000#32)) (ix2 p q)
      = ((∑ d : Fin 1024, l₁ (ix2 p d) * w₁ (ix2 d q)) + bk (ix2 (0 : Fin 1) q))
        * ∑ d : Fin 1024, l₂ (ix2 p d) * w₂ (ix2 d q) := by
  show addf (matmul (DotDims.plain 128 1024 1024) none l₁ w₁ (constant Blk .f32 0x00000000#32))
        (broadcastTo Blk (shapeCast BiasRow bk hs) hb) (ix2 p q)
      * matmul (DotDims.plain 128 1024 1024) none l₂ w₂ (constant Blk .f32 0x00000000#32) (ix2 p q) = _
  rw [in_apply, prod_apply]

end Cert.GateBlock

end
-- ==== Proof.GatedCell.lean ====
/-
  The recurrent cell both programs compute, over the extended reals.

  Fix a batch row and a hidden unit. The cell sees the row of `x` (`xr`), the row of `h` (`hr`), the old cell value
  `cv`, and for each of the six gates `k` the unit's input weight row `w k`, its recurrent weight row `u k` and its
  bias `bv k`. Gate `k` has an input projection `inProj k = Σ_d xr d · w k d + bv k`, a recurrent projection
  `recProj k = Σ_d hr d · u k d`, and the pre-activation `pre k`, their sum. With σ the logistic function
  `1 / (1 + e^(-z))`:

    cell   = σ(pre 1) · cv + σ(pre 0) · tanh(pre 3) + σ(pre 5) · (inProj 4 · recProj 4)
    hidden = σ(pre 2) · tanh(cell)

  (the multiplicative term uses gate 4's two projections separately, not their sum). The arrays `cellNew` and
  `hiddenNew` are this function at every (row, unit) of the argument arrays. No algebraic law beyond commutativity of
  the product is needed to meet either program, so nothing here asks the inputs to be finite.
-/
import Idealize.ShloMosaic.PureOps.Ideal
import Idealize.ShloMosaic.Lib.ValueIdx

noncomputable section

namespace Cert.GatedCell

open Idealize.ShloMosaic Idealize.ShloMosaic.ValueIdx

section Scalar

variable (xr hr : Fin 1024 → EReal) (cv : EReal) (w u : Fin 6 → Fin 1024 → EReal) (bv : Fin 6 → EReal)

/-- Gate `k`'s input projection: the row of `x` against the unit's weight row, plus the bias. -/
def inProj (k : Fin 6) : EReal := (∑ d : Fin 1024, xr d * w k d) + bv k

/-- Gate `k`'s recurrent projection: the row of `h` against the unit's recurrent weight row. -/
def recProj (k : Fin 6) : EReal := ∑ d : Fin 1024, hr d * u k d

/-- Gate `k`'s pre-activation: input projection plus recurrent projection. -/
def pre (k : Fin 6) : EReal := inProj xr w bv k + recProj hr u k

/-- The new cell value. -/
def cellOf : EReal :=
  Ideal.logistic (pre xr hr w u bv 1) * cv
    + Ideal.logistic (pre xr hr w u bv 0) * Ideal.tanh (pre xr hr w u bv 3)
    + Ideal.logistic (pre xr hr w u bv 5) * (inProj xr w bv 4 * recProj hr u 4)

/-- The new hidden value. -/
def hiddenOf : EReal :=
  Ideal.logistic (pre xr hr w u bv 2) * Ideal.tanh (cellOf xr hr cv w u bv)

end Scalar

/-- The shape of the batch-by-feature arrays `x`, `h`, `c` and of both results. -/
abbrev Rows : Shape := ⟨2, ![4096, 1024]⟩
/-- The shape of the stacked weights: gate, output unit, input feature. -/
abbrev Gates : Shape := ⟨3, ![6, 1024, 1024]⟩
/-- The shape of the stacked biases: gate, output unit. -/
abbrev Biases : Shape := ⟨2, ![6, 1024]⟩

variable (x h c : Rows.Idx → EReal) (W U : Gates.Idx → EReal) (b : Biases.Idx → EReal)

/-- The new cell state as an array: at `(r, j)` the cell of row `r` of `x` and `h`, of `c (r, j)`, and of unit `j`'s
    weight rows and biases. -/
def cellNew : Rows.Idx → EReal := fun i =>
  cellOf (fun d => x (ix2 (i 0) d)) (fun d => h (ix2 (i 0) d)) (c i)
    (fun k d => W (ix3 k (i 1) d)) (fun k d => U (ix3 k (i 1) d)) (fun k => b (ix2 k (i 1)))

/-- The new hidden state as an array. -/
def hiddenNew : Rows.Idx → EReal := fun i =>
  hiddenOf (fun d => x (ix2 (i 0) d)) (fun d => h (ix2 (i 0) d)) (c i)
    (fun k d => W (ix3 k (i 1) d)) (fun k d => U (ix3 k (i 1) d)) (fun k => b (ix2 k (i 1)))

end Cert.GatedCell

end
-- ==== Proof.KernelCell.lean ====
/-
  What the kernel's body leaves in its two output blocks, read at an index of the block, at the ideal values.

  The body works on a block of 128 batch rows. It loads the blocks of `x`, `h` and `c`, and from the folded weight
  matrices (1024 × 6144: gate `k`'s slab is the columns `k·1024 … k·1024 + 1023`) and the folded bias row (1 × 6144) the
  six gates' slabs and bias rows. Narrowing `x` and `h` to bf16 is the identity at the ideal values. Each gate is one
  of the three shapes of `GateBlock`; the cell and hidden blocks combine them pointwise. So at `(p, q)` the cell block
  is `GatedCell.cellOf` of row `p` of the `x` and `h` blocks, the `c` block's entry, and columns `k·1024 + q` of the
  folded weights and biases — and the hidden block is `GatedCell.hiddenOf` of the same.
-/
import proofs.«120865_j65962107732595_1_alg».proof.Proof.Gen.KernelIdeal.Frame
import proofs.«120865_j65962107732595_1_alg».proof.Proof.GateBlock
import proofs.«120865_j65962107732595_1_alg».proof.Proof.GatedCell

noncomputable section

namespace Cert.KernelIdeal.CellValue

open Cert.KernelIdeal Cert.KernelIdeal.Gen Idealize.ShloMosaic Idealize.ShloMosaic.ValueIdx Cert.GateBlock Cert.GatedCell

/-! ## The gates, as the body computes them from loaded values -/

section Gates

variable (v0 v2 : FVec Ideal S128x1024 .f32) (l₁ l₂ : FVec Ideal S128x1024 .bf16)
  (wa ua : FVec Ideal S1024x1024 .bf16) (ba : FVec Ideal S1x1024 .f32) (p : Fin 128) (q : Fin 1024)

/-- Gate 0 (logistic), from the f32 blocks and the raw loads of its slabs and bias row. -/
theorem gate0_apply :
    k0_pay5 (F := Ideal) v0 v2 wa ua ba (ix2 p q)
      = Ideal.logistic (((∑ d : Fin 1024, v0 (ix2 p d) * wa (ix2 d q)) + ba (ix2 (0 : Fin 1) q))
        + ∑ d : Fin 1024, v2 (ix2 p d) * ua (ix2 d q)) := by
  refine (logistic_gate_apply (k0_pay3 v0) (k0_pay4 v2) (shapeCast S1024x1024 wa shapeCasts_S1024x1024_S1024x1024)
    (shapeCast S1024x1024 ua shapeCasts_S1024x1024_S1024x1024) ba shapeCasts_S1x1024_S1x1024 broadcasts_S1x1024_S128x1024 p q).trans ?_
  simp only [shapeCast_self]
  rfl

/-- Gate 1 (logistic), likewise. -/
theorem gate1_apply :
    k0_pay6 (F := Ideal) v0 v2 wa ua ba (ix2 p q)
      = Ideal.logistic (((∑ d : Fin 1024, v0 (ix2 p d) * wa (ix2 d q)) + ba (ix2 (0 : Fin 1) q))
        + ∑ d : Fin 1024, v2 (ix2 p d) * ua (ix2 d q)) := by
  refine (logistic_gate_apply (k0_pay3 v0) (k0_pay4 v2) (shapeCast S1024x1024 wa shapeCasts_S1024x1024_S1024x1024)
    (shapeCast S1024x1024 ua shapeCasts_S1024x1024_S1024x1024) ba shapeCasts_S1x1024_S1x1024 broadcasts_S1x1024_S128x1024 p q).trans ?_
  simp only [shapeCast_self]
  rfl

/-- Gate 2 (logistic), from the narrowed blocks and its slabs as already cast. -/
theorem gate2_apply :
    k0_pay9 (F := Ideal) l₁ l₂ wa ua ba (ix2 p q)
      = Ideal.logistic (((∑ d : Fin 1024, l₁ (ix2 p d) * wa (ix2 d q)) + ba (ix2 (0 : Fin 1) q))
        + ∑ d : Fin 1024, l₂ (ix2 p d) * ua (ix2 d q)) :=
  logistic_gate_apply l₁ l₂ wa ua ba shapeCasts_S1x1024_S1x1024 broadcasts_S1x1024_S128x1024 p q

/-- Gate 3 (hyperbolic tangent), from the narrowed blocks and the raw loads of its slabs. -/
theorem gate3_apply :
    k0_pay10 (F := Ideal) l₁ l₂ wa ua ba (ix2 p q)
      = Ideal.tanh (((∑ d : Fin 1024, l₁ (ix2 p d) * wa (ix2 d q)) + ba (ix2 (0 : Fin 1) q))
        + ∑ d : Fin 1024, l₂ (ix2 p d) * ua (ix2 d q)) := by
  refine (tanh_gate_apply l₁ l₂ (shapeCast S1024x1024 wa shapeCasts_S1024x1024_S1024x1024)
    (shapeCast S1024x1024 ua shapeCasts_S1024x1024_S1024x1024) ba shapeCasts_S1x1024_S1x1024 broadcasts_S1x1024_S128x1024 p q).trans ?_
  simp only [shapeCast_self]

/-- Gate 4 (the product of its two projections), likewise. -/
theorem gate4_apply :
    k0_pay11 (F := Ideal) l₁ l₂ wa ua ba (ix2 p q)
      = ((∑ d : Fin 1024, l₁ (ix2 p d) * wa (ix2 d q)) + ba (ix2 (0 : Fin 1) q))
        * ∑ d : Fin 1024, l₂ (ix2 p d) * ua (ix2 d q) := by
  refine (product_gate_apply l₁ l₂ (shapeCast S1024x1024 wa shapeCasts_S1024x1024_S1024x1024)
    (shapeCast S1024x1024 ua shapeCasts_S1024x1024_S1024x1024) ba shapeCasts_S1x1024_S1x1024 broadcasts_S1x1024_S128x1024 p q).trans ?_
  simp only [shapeCast_self]

variable (cv g0 g1 g2 g3 g4 : FVec Ideal S128x1024 .f32)

/-- The cell block: forget gate times the old cell, input gate times the candidate, and gate 5 (logistic, computed
    here from the narrowed blocks and its cast slabs) times gate 4's product. -/
theorem cell_apply :
    k0_pay1 (F := Ideal) l₁ l₂ cv g0 g1 g3 g4 wa ua ba (ix2 p q)
      = g1 (ix2 p q) * cv (ix2 p q) + g0 (ix2 p q) * g3 (ix2 p q)
        + Ideal.logistic (((∑ d : Fin 1024, l₁ (ix2 p d) * wa (ix2 d q)) + ba (ix2 (0 : Fin 1) q))
          + ∑ d : Fin 1024, l₂ (ix2 p d) * ua (ix2 d q)) * g4 (ix2 p q) :=
  congrArg (fun z => g1 (ix2 p q) * cv (ix2 p q) + g0 (ix2 p q) * g3 (ix2 p q) + z * g4 (ix2 p q))
    (logistic_gate_apply l₁ l₂ wa ua ba shapeCasts_S1x1024_S1x1024 broadcasts_S1x1024_S128x1024 p q)

/-- The hidden block: the output gate times the hyperbolic tangent of the cell block. -/
theorem hidden_apply :
    k0_pay2 (F := Ideal) l₁ l₂ cv g0 g1 g2 g3 g4 wa ua ba (ix2 p q)
      = g2 (ix2 p q) * Ideal.tanh (k0_pay1 (F := Ideal) l₁ l₂ cv g0 g1 g3 g4 wa ua ba (ix2 p q)) := rfl

end Gates

/-! ## Where a gate's slab and bias row sit in the folded arrays -/

/-- Gate `k`'s slab is the 1024 columns from `k · 1024`: the slab's `(d, q)` is the folded matrix's `(d, k·1024 + q)`. -/
theorem slab_idx (o : Nat) (inb : ∀ a, (![0, o] : Fin 2 → Nat) a + S1024x1024.size a ≤ S1024x6144.size a)
    (k : Fin 6) (hk : o = k.val * 1024) (d q : Fin 1024) :
    (Rect.unit (s := S1024x6144) ![0, o] S1024x1024.size inb).idx (ix2 d q)
      = ix2 d (⟨k.val * 1024 + q.val, by have := k.isLt; have := q.isLt; omega⟩ : Fin 6144) := by
  subst hk
  funext a; apply Fin.ext
  match a with
  | ⟨0, _⟩ => show 0 + 1 * d.val = d.val; omega
  | ⟨1, _⟩ => show k.val * 1024 + 1 * q.val = k.val * 1024 + q.val; omega

/-- Gate `k`'s bias row is the 1024 entries from `k · 1024` of the folded bias row. -/
theorem bias_idx (o : Nat) (inb : ∀ a, (![0, o] : Fin 2 → Nat) a + S1x1024.size a ≤ S1x6144.size a)
    (k : Fin 6) (hk : o = k.val * 1024) (z : Fin 1) (q : Fin 1024) :
    (Rect.unit (s := S1x6144) ![0, o] S1x1024.size inb).idx (ix2 z q)
      = ix2 (0 : Fin 1) (⟨k.val * 1024 + q.val, by have := k.isLt; have := q.isLt; omega⟩ : Fin 6144) := by
  subst hk
  funext a; apply Fin.ext
  match a with
  | ⟨0, _⟩ => show 0 + 1 * z.val = 0; have := z.isLt; omega
  | ⟨1, _⟩ => show k.val * 1024 + 1 * q.val = k.val * 1024 + q.val; omega

/-- Unit `q`'s six weight rows in a folded weight matrix: gate `k`'s is column `k·1024 + q`. -/
def foldedRows (X : FVec Ideal S1024x6144 .bf16) (q : Fin 1024) : Fin 6 → Fin 1024 → EReal := fun k d =>
  X (ix2 d (⟨k.val * 1024 + q.val, by have := k.isLt; have := q.isLt; omega⟩ : Fin 6144))

/-- Unit `q`'s six biases in the folded bias row. -/
def foldedBiases (B : FVec Ideal S1x6144 .f32) (q : Fin 1024) : Fin 6 → EReal := fun k =>
  B (ix2 (0 : Fin 1) (⟨k.val * 1024 + q.val, by have := k.isLt; have := q.isLt; omega⟩ : Fin 6144))

section Reads

variable (d q : Fin 1024) (z : Fin 1)

theorem slab_idx0 : r0_1.idx (ix2 d q) = ix2 d (⟨(0 : Fin 6).val * 1024 + q.val, by have := q.isLt; omega⟩ : Fin 6144) := slab_idx 0 _ 0 rfl d q
theorem slab_idx1 : r0_3.idx (ix2 d q) = ix2 d (⟨(1 : Fin 6).val * 1024 + q.val, by have := q.isLt; omega⟩ : Fin 6144) := slab_idx 1024 _ 1 rfl d q
theorem slab_idx2 : r0_5.idx (ix2 d q) = ix2 d (⟨(2 : Fin 6).val * 1024 + q.val, by have := q.isLt; omega⟩ : Fin 6144) := slab_idx 2048 _ 2 rfl d q
theorem slab_idx3 : r0_7.idx (ix2 d q) = ix2 d (⟨(3 : Fin 6).val * 1024 + q.val, by have := q.isLt; omega⟩ : Fin 6144) := slab_idx 3072 _ 3 rfl d q
theorem slab_idx4 : r0_9.idx (ix2 d q) = ix2 d (⟨(4 : Fin 6).val * 1024 + q.val, by have := q.isLt; omega⟩ : Fin 6144) := slab_idx 4096 _ 4 rfl d q
theorem slab_idx5 : r0_11.idx (ix2 d q) = ix2 d (⟨(5 : Fin 6).val * 1024 + q.val, by have := q.isLt; omega⟩ : Fin 6144) := slab_idx 5120 _ 5 rfl d q
theorem bias_idx0 : r0_2.idx (ix2 z q) = ix2 (0 : Fin 1) (⟨(0 : Fin 6).val * 1024 + q.val, by have := q.isLt; omega⟩ : Fin 6144) := bias_idx 0 _ 0 rfl z q
theorem bias_idx1 : r0_4.idx (ix2 z q) = ix2 (0 : Fin 1) (⟨(1 : Fin 6).val * 1024 + q.val, by have := q.isLt; omega⟩ : Fin 6144) := bias_idx 1024 _ 1 rfl z q
theorem bias_idx2 : r0_6.idx (ix2 z q) = ix2 (0 : Fin 1) (⟨(2 : Fin 6).val * 1024 + q.val, by have := q.isLt; omega⟩ : Fin 6144) := bias_idx 2048 _ 2 rfl z q
theorem bias_idx3 : r0_8.idx (ix2 z q) = ix2 (0 : Fin 1) (⟨(3 : Fin 6).val * 1024 + q.val, by have := q.isLt; omega⟩ : Fin 6144) := bias_idx 3072 _ 3 rfl z q
theorem bias_idx4 : r0_10.idx (ix2 z q) = ix2 (0 : Fin 1) (⟨(4 : Fin 6).val * 1024 + q.val, by have := q.isLt; omega⟩ : Fin 6144) := bias_idx 4096 _ 4 rfl z q
theorem bias_idx5 : r0_12.idx (ix2 z q) = ix2 (0 : Fin 1) (⟨(5 : Fin 6).val * 1024 + q.val, by have := q.isLt; omega⟩ : Fin 6144) := bias_idx 5120 _ 5 rfl z q

end Reads

/-! ## The two output blocks at an index -/

/-- The whole-block rectangle's offsets are zero. -/
theorem origin_eq : (![0, 0] : Fin 2 → Nat) = fun _ => 0 := funext fun a => by fin_cases a <;> rfl

section Blocks

variable (x0 x1 x2 : Vec Ideal S128x1024 .f32) (x3 x4 : Vec Ideal S1024x6144 .bf16) (x5 : Vec Ideal S1x6144 .f32)
  (p : Fin 128) (q : Fin 1024)

/-- The cell block's payload at `(p, q)`, over the blocks and the loads of the six gates' slabs and bias rows: the
    cell of row `p` of the `x` and `h` blocks, the `c` block's entry, and unit `q`'s columns of the folded weights
    and biases. -/
theorem cell_pay :
    k0_pay1 (F := Ideal) (k0_pay3 x0) (k0_pay4 x1) x2
        (k0_pay5 x0 x1 (View.ld x3 r0_1) (View.ld x4 r0_1) (View.ld x5 r0_2))
        (k0_pay6 x0 x1 (View.ld x3 r0_3) (View.ld x4 r0_3) (View.ld x5 r0_4))
        (k0_pay10 (k0_pay3 x0) (k0_pay4 x1) (View.ld x3 r0_7) (View.ld x4 r0_7) (View.ld x5 r0_8))
        (k0_pay11 (k0_pay3 x0) (k0_pay4 x1) (View.ld x3 r0_9) (View.ld x4 r0_9) (View.ld x5 r0_10))
        (k0_pay12 (View.ld x3 r0_11)) (k0_pay13 (View.ld x4 r0_11)) (View.ld x5 r0_12) (ix2 p q)
      = cellOf (fun d => x0 (ix2 p d)) (fun d => x1 (ix2 p d)) (x2 (ix2 p q))
          (foldedRows x3 q) (foldedRows x4 q) (foldedBiases x5 q) := by
  refine (cell_apply _ _ _ _ _ p q _ _ _ _ _).trans ?_
  rw [gate0_apply, gate1_apply, gate3_apply, gate4_apply]
  simp only [k0_pay12, k0_pay13, shapeCast_self]
  dsimp only [View.ld]
  simp only [slab_idx0, slab_idx1, slab_idx3, slab_idx4, slab_idx5, bias_idx0, bias_idx1, bias_idx3, bias_idx4, bias_idx5]
  rfl

/-- The cell block at `(p, q)`. -/
theorem cell_block :
    out0_7 (F := Ideal) x0 x1 x2 x3 x4 x5 (ix2 p q)
      = cellOf (fun d => x0 (ix2 p d)) (fun d => x1 (ix2 p d)) (x2 (ix2 p q))
          (foldedRows x3 q) (foldedRows x4 q) (foldedBiases x5 q) := by
  unfold out0_7
  rw [View.canon_unit_zero origin_eq]
  simp only [View.ld_unit_zero (S := S128x1024) origin_eq]
  exact cell_pay x0 x1 x2 x3 x4 x5 p q

/-- The hidden block at `(p, q)`: the output gate times the hyperbolic tangent of the cell. -/
theorem hidden_block :
    out0_6 (F := Ideal) x0 x1 x2 x3 x4 x5 (ix2 p q)
      = hiddenOf (fun d => x0 (ix2 p d)) (fun d => x1 (ix2 p d)) (x2 (ix2 p q))
          (foldedRows x3 q) (foldedRows x4 q) (foldedBiases x5 q) := by
  unfold out0_6
  rw [View.canon_unit_zero origin_eq]
  simp only [View.ld_unit_zero (S := S128x1024) origin_eq]
  refine (hidden_apply _ _ _ _ _ p q _ _ _ _ _ _).trans ?_
  rw [cell_pay, gate2_apply]
  simp only [k0_pay7, k0_pay8, shapeCast_self]
  dsimp only [View.ld]
  simp only [slab_idx2, bias_idx2]
  rfl

end Blocks

end Cert.KernelIdeal.CellValue

end
-- ==== Proof.KernelArray.lean ====
/-
  From blocks to arrays: the kernel's two result arrays after the run are the cell and hidden arrays of `GatedCell`.

  Before the kernel runs, the host folds the stacked weights: `W(k, j, d)` is transposed to `(d, k, j)` and
  reshaped to a 1024 × 6144 matrix, so the folded matrix's `(d, k·1024 + j)` is `W(k, j, d)` (narrowing it to bf16
  is the identity at the ideal values); the biases `b(k, j)` are reshaped to one row whose entry `k·1024 + j` is
  `b(k, j)`. The grid has 32 points; point `t` works on batch rows `128·t … 128·t + 127` of `x`, `h`, `c` and of both
  results, and sees the folded weights and biases whole. So what point `t` writes back is block `t` of the cell (or
  hidden) array, and the 32 blocks cover the 4096 rows.
-/
import proofs.«120865_j65962107732595_1_alg».proof.Proof.Gen.KernelIdeal.Value
import proofs.«120865_j65962107732595_1_alg».proof.Proof.KernelCell
import Idealize.ShloMosaic.Lib.StableHlo.Run

noncomputable section

namespace Cert.KernelIdeal.ArrayValue

open Cert.KernelIdeal Cert.KernelIdeal.Gen Cert.KernelIdeal.CellValue Cert.GatedCell
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## What the host leaves in the folded arrays -/

/-- The folded input weights as the region finds them. -/
theorem foldedW_eq (c : Dev nD) :
    (V m c main_v2 : S1024x6144.Idx → EReal)
      = truncf (F := Ideal) .bf16 (shapeCast S1024x6144 (transpose S1024x6x1024 [2, 0, 1] (m ((c : Thread nD τ).loc main_arg3))
          transposes_S6x1024x1024_S1024x6x1024_2_0_1) shapeCasts_S1024x6x1024_S1024x6144) bitsLt_bf16_f32 := by
  dsimp only [Gen.V, Gen.hostOps0]; after_results; rfl

/-- The folded recurrent weights as the region finds them. -/
theorem foldedU_eq (c : Dev nD) :
    (V m c main_v5 : S1024x6144.Idx → EReal)
      = truncf (F := Ideal) .bf16 (shapeCast S1024x6144 (transpose S1024x6x1024 [2, 0, 1] (m ((c : Thread nD τ).loc main_arg5))
          transposes_S6x1024x1024_S1024x6x1024_2_0_1) shapeCasts_S1024x6x1024_S1024x6144) bitsLt_bf16_f32 := by
  dsimp only [Gen.V, Gen.hostOps0]; after_results; rfl

/-- The folded bias row as the region finds it. -/
theorem foldedB_eq (c : Dev nD) :
    (V m c main_v6 : S1x6144.Idx → EReal)
      = shapeCast S1x6144 (m ((c : Thread nD τ).loc main_arg4)) shapeCasts_S6x1024_S1x6144 := by
  dsimp only [Gen.V, Gen.hostOps0]; after_results; rfl

/-- The folded input weights at `(d, k·1024 + j)` are `W(k, j, d)`. -/
theorem foldedW_apply (c : Dev nD) (d : Fin 1024) (k : Fin 6) (j : Fin 1024) :
    (V m c main_v2 : S1024x6144.Idx → EReal) (ix2 d (⟨k.val * 1024 + j.val, by have := k.isLt; have := j.isLt; omega⟩ : Fin 6144))
      = m ((c : Thread nD τ).loc main_arg3) (ix3 k j d) := by
  rw [foldedW_eq]
  show shapeCast S1024x6144 (transpose S1024x6x1024 [2, 0, 1] (m ((c : Thread nD τ).loc main_arg3))
      transposes_S6x1024x1024_S1024x6x1024_2_0_1) shapeCasts_S1024x6x1024_S1024x6144 _ = _
  refine (shapeCast_apply _ shapeCasts_S1024x6x1024_S1024x6144 _ (ix3 d k j) ?_).trans ?_
  · rewrite [Shape.rowMajor_val_three, Shape.rowMajor_val_two]
    show (d.val * 6 + k.val) * 1024 + j.val = d.val * 6144 + (k.val * 1024 + j.val)
    omega
  · exact transpose_apply [2, 0, 1] _ transposes_S6x1024x1024_S1024x6x1024_2_0_1 (ix3 d k j) (ix3 k j d) (fun b => match b with
      | ⟨0, _⟩ => rfl
      | ⟨1, _⟩ => rfl
      | ⟨2, _⟩ => rfl)

/-- The folded recurrent weights at `(d, k·1024 + j)` are `U(k, j, d)`. -/
theorem foldedU_apply (c : Dev nD) (d : Fin 1024) (k : Fin 6) (j : Fin 1024) :
    (V m c main_v5 : S1024x6144.Idx → EReal) (ix2 d (⟨k.val * 1024 + j.val, by have := k.isLt; have := j.isLt; omega⟩ : Fin 6144))
      = m ((c : Thread nD τ).loc main_arg5) (ix3 k j d) := by
  rw [foldedU_eq]
  show shapeCast S1024x6144 (transpose S1024x6x1024 [2, 0, 1] (m ((c : Thread nD τ).loc main_arg5))
      transposes_S6x1024x1024_S1024x6x1024_2_0_1) shapeCasts_S1024x6x1024_S1024x6144 _ = _
  refine (shapeCast_apply _ shapeCasts_S1024x6x1024_S1024x6144 _ (ix3 d k j) ?_).trans ?_
  · rewrite [Shape.rowMajor_val_three, Shape.rowMajor_val_two]
    show (d.val * 6 + k.val) * 1024 + j.val = d.val * 6144 + (k.val * 1024 + j.val)
    omega
  · exact transpose_apply [2, 0, 1] _ transposes_S6x1024x1024_S1024x6x1024_2_0_1 (ix3 d k j) (ix3 k j d) (fun b => match b with
      | ⟨0, _⟩ => rfl
      | ⟨1, _⟩ => rfl
      | ⟨2, _⟩ => rfl)

/-- The folded bias row at `k·1024 + j` is `b(k, j)`. -/
theorem foldedB_apply (c : Dev nD) (k : Fin 6) (j : Fin 1024) :
    (V m c main_v6 : S1x6144.Idx → EReal) (ix2 (0 : Fin 1) (⟨k.val * 1024 + j.val, by have := k.isLt; have := j.isLt; omega⟩ : Fin 6144))
      = m ((c : Thread nD τ).loc main_arg4) (ix2 k j) := by
  rw [foldedB_eq]
  refine shapeCast_apply _ shapeCasts_S6x1024_S1x6144 _ (ix2 k j) ?_
  rewrite [Shape.rowMajor_val_two, Shape.rowMajor_val_two]
  show k.val * 1024 + j.val = 0 * 6144 + (k.val * 1024 + j.val)
  omega

/-! ## The windows' blocks at a grid point -/

/-- The printed index maps, decided over the 32 grid points: the three row windows and both result windows sit at
    block row `t`, block column 0; the folded weights and biases are one block each. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Batch row `128·t + p`: row `p` of grid point `t`'s block. -/
def rowOf (t : Fin cfg0.N) (p : Fin 128) : Fin 4096 :=
  ⟨t.val * 128 + p.val, by have ht : t.val < 32 := t.isLt; have := p.isLt; omega⟩

section Reads

variable (c : Dev nD) (t : Fin cfg0.N) (p : Fin 128) (q d : Fin 1024)

/-- The `x` block's row `p` is row `128·t + p` of `x`. -/
theorem x_block : iblk m c 0 t (ix2 p d) = m ((c : Thread nD τ).loc main_arg0) (ix2 (rowOf t p) d) := by
  obtain ⟨e0, e1, -⟩ := idx_facts t
  show V m c main_arg0 (((cfg0.win 0).blk t).view.emb (ix2 p d)) = _
  rw [V_main_arg0]
  refine congrArg _ (funext fun a => Fin.ext ?_)
  match a with
  | ⟨0, _⟩ => show win0_0.index t (0 : Fin 2) * 128 + 1 * p.val = t.val * 128 + p.val; omega
  | ⟨1, _⟩ => show win0_0.index t (1 : Fin 2) * 1024 + 1 * d.val = d.val; omega

/-- The `h` block's row `p` is row `128·t + p` of `h`. -/
theorem h_block : iblk m c 1 t (ix2 p d) = m ((c : Thread nD τ).loc main_arg1) (ix2 (rowOf t p) d) := by
  obtain ⟨-, -, e0, e1, -⟩ := idx_facts t
  show V m c main_arg1 (((cfg0.win 1).blk t).view.emb (ix2 p d)) = _
  rw [V_main_arg1]
  refine congrArg _ (funext fun a => Fin.ext ?_)
  match a with
  | ⟨0, _⟩ => show win0_1.index t (0 : Fin 2) * 128 + 1 * p.val = t.val * 128 + p.val; omega
  | ⟨1, _⟩ => show win0_1.index t (1 : Fin 2) * 1024 + 1 * d.val = d.val; omega

/-- The `c` block's row `p` is row `128·t + p` of `c`. -/
theorem c_block : iblk m c 2 t (ix2 p q) = m ((c : Thread nD τ).loc main_arg2) (ix2 (rowOf t p) q) := by
  obtain ⟨-, -, -, -, e0, e1, -⟩ := idx_facts t
  show V m c main_arg2 (((cfg0.win 2).blk t).view.emb (ix2 p q)) = _
  rw [V_main_arg2]
  refine congrArg _ (funext fun a => Fin.ext ?_)
  match a with
  | ⟨0, _⟩ => show win0_2.index t (0 : Fin 2) * 128 + 1 * p.val = t.val * 128 + p.val; omega
  | ⟨1, _⟩ => show win0_2.index t (1 : Fin 2) * 1024 + 1 * q.val = q.val; omega

/-- Unit `q`'s weight rows in the folded input weights' block are `W(k, q, ·)`. -/
theorem w_block : foldedRows (iblk m c 3 t) q = fun k d => m ((c : Thread nD τ).loc main_arg3) (ix3 k q d) := by
  obtain ⟨-, -, -, -, -, -, e0, e1, -⟩ := idx_facts t
  funext k d
  unfold foldedRows
  show (V m c main_v2 : S1024x6144.Idx → EReal) (((cfg0.win 3).blk t).view.emb (ix2 d (⟨k.val * 1024 + q.val, _⟩ : Fin 6144))) = _
  refine Eq.trans (congrArg _ (funext fun a => Fin.ext ?_)) (foldedW_apply m c d k q)
  match a with
  | ⟨0, _⟩ => show win0_3.index t (0 : Fin 2) * 1024 + 1 * d.val = d.val; omega
  | ⟨1, _⟩ => show win0_3.index t (1 : Fin 2) * 6144 + 1 * (k.val * 1024 + q.val) = k.val * 1024 + q.val; omega

/-- Unit `q`'s recurrent weight rows in the folded recurrent weights' block are `U(k, q, ·)`. -/
theorem u_block : foldedRows (iblk m c 4 t) q = fun k d => m ((c : Thread nD τ).loc main_arg5) (ix3 k q d) := by
  obtain ⟨-, -, -, -, -, -, -, -, e0, e1, -⟩ := idx_facts t
  funext k d
  unfold foldedRows
  show (V m c main_v5 : S1024x6144.Idx → EReal) (((cfg0.win 4).blk t).view.emb (ix2 d (⟨k.val * 1024 + q.val, _⟩ : Fin 6144))) = _
  refine Eq.trans (congrArg _ (funext fun a => Fin.ext ?_)) (foldedU_apply m c d k q)
  match a with
  | ⟨0, _⟩ => show win0_4.index t (0 : Fin 2) * 1024 + 1 * d.val = d.val; omega
  | ⟨1, _⟩ => show win0_4.index t (1 : Fin 2) * 6144 + 1 * (k.val * 1024 + q.val) = k.val * 1024 + q.val; omega

/-- Unit `q`'s biases in the folded bias row's block are `b(k, q)`. -/
theorem b_block : foldedBiases (iblk m c 5 t) q = fun k => m ((c : Thread nD τ).loc main_arg4) (ix2 k q) := by
  obtain ⟨-, -, -, -, -, -, -, -, -, -, e0, e1, -⟩ := idx_facts t
  funext k
  unfold foldedBiases
  show (V m c main_v6 : S1x6144.Idx → EReal) (((cfg0.win 5).blk t).view.emb (ix2 (0 : Fin 1) (⟨k.val * 1024 + q.val, _⟩ : Fin 6144))) = _
  refine Eq.trans (congrArg _ (funext fun a => Fin.ext ?_)) (foldedB_apply m c k q)
  match a with
  | ⟨0, _⟩ => show win0_5.index t (0 : Fin 2) * 1 + 1 * 0 = 0; omega
  | ⟨1, _⟩ => show win0_5.index t (1 : Fin 2) * 6144 + 1 * (k.val * 1024 + q.val) = k.val * 1024 + q.val; omega

/-- The cell window's block at `t` sits at rows `128·t …`. -/
theorem cell_emb : ((cfg0.win 7).blk t).view.emb (ix2 p q) = ix2 (rowOf t p) q := by
  obtain ⟨-, -, -, -, -, -, -, -, -, -, -, -, -, -, e0, e1⟩ := idx_facts t
  funext a; apply Fin.ext
  match a with
  | ⟨0, _⟩ => show win0_7.index t (0 : Fin 2) * 128 + 1 * p.val = t.val * 128 + p.val; omega
  | ⟨1, _⟩ => show win0_7.index t (1 : Fin 2) * 1024 + 1 * q.val = q.val; omega

/-- The hidden window's block at `t` sits at rows `128·t …`. -/
theorem hidden_emb : ((cfg0.win 6).blk t).view.emb (ix2 p q) = ix2 (rowOf t p) q := by
  obtain ⟨-, -, -, -, -, -, -, -, -, -, -, -, e0, e1, -⟩ := idx_facts t
  funext a; apply Fin.ext
  match a with
  | ⟨0, _⟩ => show win0_6.index t (0 : Fin 2) * 128 + 1 * p.val = t.val * 128 + p.val; omega
  | ⟨1, _⟩ => show win0_6.index t (1 : Fin 2) * 1024 + 1 * q.val = q.val; omega

end Reads

/-! ## What each point writes back -/

/-- The new cell state of the argument arrays as core `c` holds them. -/
abbrev cellArr (c : Dev nD) : S4096x1024.Idx → EReal :=
  cellNew (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4))

/-- The new hidden state of the argument arrays as core `c` holds them. -/
abbrev hiddenArr (c : Dev nD) : S4096x1024.Idx → EReal :=
  hiddenNew (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4))

/-- Point `t` writes back block `t` of the new cell state. -/
theorem cell_flushed (c : Dev nD) (t : Fin cfg0.N) :
    (dats m 0 c).flushed 7 t = ((cfg0.win 7).blk t).view.read (Elt Ideal) (cellArr m c) := by
  rw [Value.flushed7]
  funext y
  obtain ⟨p, q, rfl⟩ : ∃ (p : Fin 128) (q : Fin 1024), y = ix2 p q := ⟨y 0, y 1, eq_ix2 y⟩
  show out0_7 (iblk m c 0 t) (iblk m c 1 t) (iblk m c 2 t) (iblk m c 3 t) (iblk m c 4 t) (iblk m c 5 t) (ix2 p q)
      = cellArr m c (((cfg0.win 7).blk t).view.emb (ix2 p q))
  rw [cell_emb]
  refine (cell_block (iblk m c 0 t) (iblk m c 1 t) (iblk m c 2 t) (iblk m c 3 t) (iblk m c 4 t) (iblk m c 5 t) p q).trans ?_
  rw [w_block, u_block, b_block, c_block]
  simp only [x_block, h_block]
  rfl

/-- Point `t` writes back block `t` of the new hidden state. -/
theorem hidden_flushed (c : Dev nD) (t : Fin cfg0.N) :
    (dats m 0 c).flushed 6 t = ((cfg0.win 6).blk t).view.read (Elt Ideal) (hiddenArr m c) := by
  rw [Value.flushed6]
  funext y
  obtain ⟨p, q, rfl⟩ : ∃ (p : Fin 128) (q : Fin 1024), y = ix2 p q := ⟨y 0, y 1, eq_ix2 y⟩
  show out0_6 (iblk m c 0 t) (iblk m c 1 t) (iblk m c 2 t) (iblk m c 3 t) (iblk m c 4 t) (iblk m c 5 t) (ix2 p q)
      = hiddenArr m c (((cfg0.win 6).blk t).view.emb (ix2 p q))
  rw [hidden_emb]
  refine (hidden_block (iblk m c 0 t) (iblk m c 1 t) (iblk m c 2 t) (iblk m c 3 t) (iblk m c 4 t) (iblk m c 5 t) p q).trans ?_
  rw [w_block, u_block, b_block, c_block]
  simp only [x_block, h_block]
  rfl

/-! ## The 32 blocks cover the 4096 rows -/

/-- An index of the cell array is in point `t`'s block iff each coordinate is in the block's range on its axis. -/
theorem mem_cell_blk (t : Fin cfg0.N) (i : S4096x1024.Idx) :
    i ∈ ((cfg0.win 7).blk t).view.set ↔ ∀ a : Fin 2, win0_7.index t a * S128x1024.size a ≤ (i a).val
      ∧ (i a).val < win0_7.index t a * S128x1024.size a + S128x1024.size a := by
  show i ∈ ((View.whole main_v7_1).slice (win0_7.rect t)).set ↔ _
  rw [View.set_slice_whole, Rect.mem_set_unit]
  exact Iff.rfl

/-- The same for the hidden array. -/
theorem mem_hidden_blk (t : Fin cfg0.N) (i : S4096x1024.Idx) :
    i ∈ ((cfg0.win 6).blk t).view.set ↔ ∀ a : Fin 2, win0_6.index t a * S128x1024.size a ≤ (i a).val
      ∧ (i a).val < win0_6.index t a * S128x1024.size a + S128x1024.size a := by
  show i ∈ ((View.whole main_v7_0).slice (win0_6.rect t)).set ↔ _
  rw [View.set_slice_whole, Rect.mem_set_unit]
  exact Iff.rfl

/-- Row `r` of the cell array is in the block of point `r / 128`, which writes back. -/
theorem cell_cover (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have ht : (i 0).val / 128 < 32 := by omega
  refine ⟨⟨(i 0).val / 128, ht⟩, flush0_7 _, ?_⟩
  obtain ⟨-, -, -, -, -, -, -, -, -, -, -, -, -, -, e0, e1⟩ := idx_facts ⟨(i 0).val / 128, ht⟩
  have e0' : win0_7.index ⟨(i 0).val / 128, ht⟩ (0 : Fin 2) = (i 0).val / 128 := e0
  rw [mem_cell_blk]
  intro a
  match a with
  | ⟨0, _⟩ =>
    show win0_7.index ⟨(i 0).val / 128, ht⟩ (0 : Fin 2) * 128 ≤ (i 0).val
      ∧ (i 0).val < win0_7.index ⟨(i 0).val / 128, ht⟩ (0 : Fin 2) * 128 + 128
    omega
  | ⟨1, _⟩ =>
    show win0_7.index ⟨(i 0).val / 128, ht⟩ (1 : Fin 2) * 1024 ≤ (i 1).val
      ∧ (i 1).val < win0_7.index ⟨(i 0).val / 128, ht⟩ (1 : Fin 2) * 1024 + 1024
    omega

/-- The same for the hidden array. -/
theorem hidden_cover (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have ht : (i 0).val / 128 < 32 := by omega
  refine ⟨⟨(i 0).val / 128, ht⟩, flush0_6 _, ?_⟩
  obtain ⟨-, -, -, -, -, -, -, -, -, -, -, -, e0, e1, -⟩ := idx_facts ⟨(i 0).val / 128, ht⟩
  have e0' : win0_6.index ⟨(i 0).val / 128, ht⟩ (0 : Fin 2) = (i 0).val / 128 := e0
  rw [mem_hidden_blk]
  intro a
  match a with
  | ⟨0, _⟩ =>
    show win0_6.index ⟨(i 0).val / 128, ht⟩ (0 : Fin 2) * 128 ≤ (i 0).val
      ∧ (i 0).val < win0_6.index ⟨(i 0).val / 128, ht⟩ (0 : Fin 2) * 128 + 128
    omega
  | ⟨1, _⟩ =>
    show win0_6.index ⟨(i 0).val / 128, ht⟩ (1 : Fin 2) * 1024 ≤ (i 1).val
      ∧ (i 1).val < win0_6.index ⟨(i 0).val / 128, ht⟩ (1 : Fin 2) * 1024 + 1024
    omega

/-! ## The arrays after the run -/

/-- The cell array ends holding the new cell state. -/
theorem cell_final (c : Dev nD) : (dats m 0 c).arrAt 7 cfg0.N = cellArr m c :=
  (dats m 0 c).arrAt_eq_of_cover 7 (cellArr m c) (fun t _ => cell_flushed m c t) cell_cover

/-- The hidden array ends holding the new hidden state. -/
theorem hidden_final (c : Dev nD) : (dats m 0 c).arrAt 6 cfg0.N = hiddenArr m c :=
  (dats m 0 c).arrAt_eq_of_cover 6 (hiddenArr m c) (fun t _ => hidden_flushed m c t) hidden_cover

/-- The kernel's run: every weakly fair execution ends with the first result at the new hidden state, the second at
    the new cell state, and the arguments unchanged. -/
theorem run : θ_run defs (onTc (τ := τ) (main (F := Ideal))) ⟨m, fun _ => 0, ρ⟩ fun r => ∀ c : Dev nD,
      r.2.mem ((c : Thread nD τ).loc main_v7_0) = hiddenArr m c
      ∧ r.2.mem ((c : Thread nD τ).loc main_v7_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (hidden_final m c), (h c).2.1.trans (cell_final m c), (h c).2.2⟩)
    (Value.run_blocks m ρ)

end Cert.KernelIdeal.ArrayValue

end
-- ==== Proof.ReferenceCell.lean ====
/-
  What the reference computes, read at an index, at the ideal values: the cell and hidden arrays of `GatedCell`.

  The reference stacks the six gates: `einsum('bd,khd->kbh')` is a contraction with the weights on the LEFT, giving a
  gate × unit × row array that a transpose turns into gate × row × unit; so at `(k, r, j)` the input projection is
  `Σ_d W(k,j,d) · x(r,d) + b(k,j)` — the sum of `GatedCell.inProj` with each product commuted — and likewise the
  recurrent projection. A gate's pre-activation is a slice of the stacked sum at gate `k`, reshaped from
  1 × 4096 × 1024; the logistic function is spelt `1 / (1 + e^(-z))` with the constant `1.0`, which is
  `Ideal.logistic` once that constant is read as the extended real one.
-/
import proofs.«120865_j65962107732595_1_alg».proof.Proof.Gen.ReferenceIdeal.Read
import proofs.«120865_j65962107732595_1_alg».proof.Proof.GatedCell
import Idealize.ShloMosaic.Lib.IdealHost

noncomputable section

namespace Cert.ReferenceIdeal.CellValue

open Cert.ReferenceIdeal Cert.ReferenceIdeal.Read Idealize.ShloMosaic Idealize.ShloMosaic.ValueIdx Cert.GatedCell

variable (x0 x1 x2 : (⟨S4096x1024, .f32⟩ : BufTy).Contents (Elt Ideal))
  (x3 x5 : (⟨S6x1024x1024, .f32⟩ : BufTy).Contents (Elt Ideal)) (x4 : (⟨S6x1024, .f32⟩ : BufTy).Contents (Elt Ideal))

/-! ## The stacked projections -/

/-- The stacked input projection at `(k, r, j)`. -/
theorem in_ref (k : Fin 6) (r : Fin 4096) (j : Fin 1024) :
    val_main_v4 (F := Ideal) x0 x3 x4 (ix3 k r j)
      = inProj (fun d => x0 (ix2 r d)) (fun k d => x3 (ix3 k j d)) (fun k => x4 (ix2 k j)) k := by
  have el : ∀ d : Fin 1024, lidx_main_v0 (idx_main_v1 (ix3 k r j)) d = ix3 k j d := fun d =>
    funext fun a => Fin.ext (by match a with | ⟨0, _⟩ => rfl | ⟨1, _⟩ => rfl | ⟨2, _⟩ => rfl)
  have er : ∀ d : Fin 1024, ridx_main_v0 (idx_main_v1 (ix3 k r j)) d = ix2 r d := fun d =>
    funext fun a => Fin.ext (by match a with | ⟨0, _⟩ => rfl | ⟨1, _⟩ => rfl)
  have eb : idx_main_v2 (idx_main_v3 (ix3 k r j)) = ix2 k j :=
    funext fun a => Fin.ext (by match a with | ⟨0, _⟩ => rfl | ⟨1, _⟩ => rfl)
  rw [val_main_v4_apply, val_main_v1_apply, val_main_v0_apply, val_main_v3_apply, val_main_v2_apply, eb]
  unfold inProj
  show (∑ d : Fin 1024, x3 (lidx_main_v0 (idx_main_v1 (ix3 k r j)) d) * x0 (ridx_main_v0 (idx_main_v1 (ix3 k r j)) d))
      + x4 (ix2 k j) = _
  refine congrArg (· + x4 (ix2 k j)) (Finset.sum_congr rfl fun d _ => ?_)
  rw [el, er, mul_comm]

/-- The stacked recurrent projection at `(k, r, j)`. -/
theorem rec_ref (k : Fin 6) (r : Fin 4096) (j : Fin 1024) :
    val_main_v6 (F := Ideal) x1 x5 (ix3 k r j)
      = recProj (fun d => x1 (ix2 r d)) (fun k d => x5 (ix3 k j d)) k := by
  have el : ∀ d : Fin 1024, lidx_main_v5 (idx_main_v6 (ix3 k r j)) d = ix3 k j d := fun d =>
    funext fun a => Fin.ext (by match a with | ⟨0, _⟩ => rfl | ⟨1, _⟩ => rfl | ⟨2, _⟩ => rfl)
  have er : ∀ d : Fin 1024, ridx_main_v5 (idx_main_v6 (ix3 k r j)) d = ix2 r d := fun d =>
    funext fun a => Fin.ext (by match a with | ⟨0, _⟩ => rfl | ⟨1, _⟩ => rfl)
  rw [val_main_v6_apply, val_main_v5_apply]
  unfold recProj
  refine Finset.sum_congr rfl fun d _ => ?_
  rw [el, er, mul_comm]

/-- The stacked pre-activation at `(k, r, j)`. -/
theorem pre_ref (k : Fin 6) (r : Fin 4096) (j : Fin 1024) :
    val_main_v7 (F := Ideal) x0 x1 x3 x4 x5 (ix3 k r j)
      = pre (fun d => x0 (ix2 r d)) (fun d => x1 (ix2 r d)) (fun k d => x3 (ix3 k j d)) (fun k d => x5 (ix3 k j d))
          (fun k => x4 (ix2 k j)) k := by
  rw [val_main_v7_apply, in_ref, rec_ref]
  rfl

/-! ## A gate is a slice of the stack -/

section Slices

variable (r : Fin 4096) (j : Fin 1024)

/-- Gate 0's pre-activation, as sliced and reshaped. -/
theorem slice0 : val_main_v9 (F := Ideal) x0 x1 x3 x4 x5 (ix2 r j) = val_main_v7 (F := Ideal) x0 x1 x3 x4 x5 (ix3 0 r j) := by
  rw [val_main_v9_apply, val_main_v8_apply]
  refine congrArg _ (funext fun a => Fin.ext ?_)
  have hr := r.isLt; have hj := j.isLt
  match a with
  | ⟨0, _⟩ => rfl
  | ⟨1, _⟩ => show (r.val * 1024 + j.val) / 1024 % 4096 = r.val; omega
  | ⟨2, _⟩ => show (r.val * 1024 + j.val) % 1024 = j.val; omega

/-- Gate 1's. -/
theorem slice1 : val_main_v17 (F := Ideal) x0 x1 x3 x4 x5 (ix2 r j) = val_main_v7 (F := Ideal) x0 x1 x3 x4 x5 (ix3 1 r j) := by
  rw [val_main_v17_apply, val_main_v16_apply]
  refine congrArg _ (funext fun a => Fin.ext ?_)
  have hr := r.isLt; have hj := j.isLt
  match a with
  | ⟨0, _⟩ => rfl
  | ⟨1, _⟩ => show (r.val * 1024 + j.val) / 1024 % 4096 = r.val; omega
  | ⟨2, _⟩ => show (r.val * 1024 + j.val) % 1024 = j.val; omega

/-- Gate 2's. -/
theorem slice2 : val_main_v25 (F := Ideal) x0 x1 x3 x4 x5 (ix2 r j) = val_main_v7 (F := Ideal) x0 x1 x3 x4 x5 (ix3 2 r j) := by
  rw [val_main_v25_apply, val_main_v24_apply]
  refine congrArg _ (funext fun a => Fin.ext ?_)
  have hr := r.isLt; have hj := j.isLt
  match a with
  | ⟨0, _⟩ => rfl
  | ⟨1, _⟩ => show (r.val * 1024 + j.val) / 1024 % 4096 = r.val; omega
  | ⟨2, _⟩ => show (r.val * 1024 + j.val) % 1024 = j.val; omega

/-- Gate 3's. -/
theorem slice3 : val_main_v33 (F := Ideal) x0 x1 x3 x4 x5 (ix2 r j) = val_main_v7 (F := Ideal) x0 x1 x3 x4 x5 (ix3 3 r j) := by
  rw [val_main_v33_apply, val_main_v32_apply]
  refine congrArg _ (funext fun a => Fin.ext ?_)
  have hr := r.isLt; have hj := j.isLt
  match a with
  | ⟨0, _⟩ => rfl
  | ⟨1, _⟩ => show (r.val * 1024 + j.val) / 1024 % 4096 = r.val; omega
  | ⟨2, _⟩ => show (r.val * 1024 + j.val) % 1024 = j.val; omega

/-- Gate 5's. -/
theorem slice5 : val_main_v41 (F := Ideal) x0 x1 x3 x4 x5 (ix2 r j) = val_main_v7 (F := Ideal) x0 x1 x3 x4 x5 (ix3 5 r j) := by
  rw [val_main_v41_apply, val_main_v40_apply]
  refine congrArg _ (funext fun a => Fin.ext ?_)
  have hr := r.isLt; have hj := j.isLt
  match a with
  | ⟨0, _⟩ => rfl
  | ⟨1, _⟩ => show (r.val * 1024 + j.val) / 1024 % 4096 = r.val; omega
  | ⟨2, _⟩ => show (r.val * 1024 + j.val) % 1024 = j.val; omega

/-- Gate 4's input projection, sliced from the stack of input projections. -/
theorem slice4_in : val_main_v36 (F := Ideal) x0 x3 x4 (ix2 r j) = val_main_v4 (F := Ideal) x0 x3 x4 (ix3 4 r j) := by
  rw [val_main_v36_apply, val_main_v35_apply]
  refine congrArg _ (funext fun a => Fin.ext ?_)
  have hr := r.isLt; have hj := j.isLt
  match a with
  | ⟨0, _⟩ => rfl
  | ⟨1, _⟩ => show (r.val * 1024 + j.val) / 1024 % 4096 = r.val; omega
  | ⟨2, _⟩ => show (r.val * 1024 + j.val) % 1024 = j.val; omega

/-- Gate 4's recurrent projection, sliced from the stack of recurrent projections. -/
theorem slice4_rec : val_main_v38 (F := Ideal) x1 x5 (ix2 r j) = val_main_v6 (F := Ideal) x1 x5 (ix3 4 r j) := by
  rw [val_main_v38_apply, val_main_v37_apply]
  refine congrArg _ (funext fun a => Fin.ext ?_)
  have hr := r.isLt; have hj := j.isLt
  match a with
  | ⟨0, _⟩ => rfl
  | ⟨1, _⟩ => show (r.val * 1024 + j.val) / 1024 % 4096 = r.val; omega
  | ⟨2, _⟩ => show (r.val * 1024 + j.val) % 1024 = j.val; omega

end Slices

/-! ## The logistic function as the reference spells it -/

/-- `1.0 / (1.0 + e^(-z))` with the f32 constant one is the logistic function. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

section Logistic

variable (i : S4096x1024.Idx)

theorem gate0_ref : val_main_v15 (F := Ideal) x0 x1 x3 x4 x5 i = Ideal.logistic (val_main_v9 (F := Ideal) x0 x1 x3 x4 x5 i) := by
  rw [val_main_v15_apply, val_main_v14_apply, val_main_cst_0_apply, val_main_v13_apply, val_main_v12_apply, val_main_cst_apply,
    val_main_v11_apply, val_main_v10_apply]
  exact logistic_spelt _

theorem gate1_ref : val_main_v23 (F := Ideal) x0 x1 x3 x4 x5 i = Ideal.logistic (val_main_v17 (F := Ideal) x0 x1 x3 x4 x5 i) := by
  rw [val_main_v23_apply, val_main_v22_apply, val_main_cst_2_apply, val_main_v21_apply, val_main_v20_apply, val_main_cst_1_apply,
    val_main_v19_apply, val_main_v18_apply]
  exact logistic_spelt _

theorem gate2_ref : val_main_v31 (F := Ideal) x0 x1 x3 x4 x5 i = Ideal.logistic (val_main_v25 (F := Ideal) x0 x1 x3 x4 x5 i) := by
  rw [val_main_v31_apply, val_main_v30_apply, val_main_cst_4_apply, val_main_v29_apply, val_main_v28_apply, val_main_cst_3_apply,
    val_main_v27_apply, val_main_v26_apply]
  exact logistic_spelt _

theorem gate5_ref : val_main_v47 (F := Ideal) x0 x1 x3 x4 x5 i = Ideal.logistic (val_main_v41 (F := Ideal) x0 x1 x3 x4 x5 i) := by
  rw [val_main_v47_apply, val_main_v46_apply, val_main_cst_6_apply, val_main_v45_apply, val_main_v44_apply, val_main_cst_5_apply,
    val_main_v43_apply, val_main_v42_apply]
  exact logistic_spelt _

end Logistic

/-! ## The two results -/

/-- The reference's second result is the new cell state. -/
theorem cell_ref : val_main_v52 (F := Ideal) x0 x1 x2 x3 x4 x5 = cellNew x0 x1 x2 x3 x5 x4 := by
  funext i
  obtain ⟨r, j, rfl⟩ : ∃ (r : Fin 4096) (j : Fin 1024), i = ix2 r j := ⟨i 0, i 1, eq_ix2 i⟩
  rw [val_main_v52_apply, val_main_v50_apply, val_main_v48_apply, val_main_v49_apply, val_main_v51_apply, val_main_v39_apply,
    val_main_v34_apply, gate0_ref, gate1_ref, gate5_ref, slice0, slice1, slice3, slice5, slice4_in, slice4_rec,
    pre_ref, pre_ref, pre_ref, pre_ref, in_ref, rec_ref]
  rfl

/-- The reference's first result is the new hidden state. -/
theorem hidden_ref : val_main_v54 (F := Ideal) x0 x1 x2 x3 x4 x5 = hiddenNew x0 x1 x2 x3 x5 x4 := by
  funext i
  rw [val_main_v54_apply, val_main_v53_apply, cell_ref]
  obtain ⟨r, j, rfl⟩ : ∃ (r : Fin 4096) (j : Fin 1024), i = ix2 r j := ⟨i 0, i 1, eq_ix2 i⟩
  rw [gate2_ref, slice2, pre_ref]
  rfl

end Cert.ReferenceIdeal.CellValue

end
-- ==== Proof.lean ====
/- The proof of `Cert.Claim`: a recurrent cell with six gates computed by one pallas kernel over 32 blocks of 128
   batch rows, against the jnp reference that stacks the gates with two einsums.

   Both programs compute, for batch row `r` and hidden unit `j`,
     cell   = σ(pre 1) · c + σ(pre 0) · tanh(pre 3) + σ(pre 5) · (inProj 4 · recProj 4)
     hidden = σ(pre 2) · tanh(cell)
   with `inProj k = Σ_d x(r,d) · W(k,j,d) + b(k,j)`, `recProj k = Σ_d h(r,d) · U(k,j,d)`, `pre k` their sum and σ the
   logistic function (Proof/GatedCell.lean). At the ideal values the kernel's bf16 narrowing is the identity, its matrix
   products into a zero accumulator are these sums, and its logistic operation is the expression `1 / (1 + e^(-z))` the
   reference spells out; the reference contracts with the weights on the left, so its products are the kernel's with
   the factors commuted. Commutativity of the product is the only law used, so the precondition is never opened.

   Kernel side: the gates on one block (Proof/GateBlock.lean over the plain matrix product of Proof/LibPlainDot.lean),
   the body's two output blocks at an index (Proof/KernelCell.lean), and from blocks to arrays over the host's folding of
   the weights (Proof/KernelArray.lean). Reference side: Proof/ReferenceCell.lean. Here the five claims are assembled:
   the two kernel frames are the kernel's own frame runs, the reference's frame is its run with the results dropped,
   there is no idealization rewrite to preserve, and the two runs end at the same two arrays. -/
import proofs.«120865_j65962107732595_1_alg».proof.Defs
import proofs.«120865_j65962107732595_1_alg».proof.Proof.Gen.Kernel
import proofs.«120865_j65962107732595_1_alg».proof.Proof.Gen.Kernel.Skeleton
import proofs.«120865_j65962107732595_1_alg».proof.Proof.Gen.Kernel.Launch
import proofs.«120865_j65962107732595_1_alg».proof.Proof.Gen.Kernel.Points
import proofs.«120865_j65962107732595_1_alg».proof.Proof.Gen.Kernel.Frame
import proofs.«120865_j65962107732595_1_alg».proof.Proof.Gen.KernelIdeal
import proofs.«120865_j65962107732595_1_alg».proof.Proof.Gen.KernelIdeal.Skeleton
import proofs.«120865_j65962107732595_1_alg».proof.Proof.Gen.KernelIdeal.Launch
import proofs.«120865_j65962107732595_1_alg».proof.Proof.Gen.KernelIdeal.Points
import proofs.«120865_j65962107732595_1_alg».proof.Proof.Gen.KernelIdeal.Frame
import proofs.«120865_j65962107732595_1_alg».proof.Proof.Gen.ReferenceIdeal
import proofs.«120865_j65962107732595_1_alg».proof.Proof.Gen.Pre_finite_inputs
import proofs.«120865_j65962107732595_1_alg».proof.Proof.Gen.KernelIdeal.Value
import proofs.«120865_j65962107732595_1_alg».proof.Proof.Gen.ReferenceIdeal.Run
import proofs.«120865_j65962107732595_1_alg».proof.Proof.Gen.ReferenceIdeal.Read
import proofs.«120865_j65962107732595_1_alg».proof.Proof.KernelArray
import proofs.«120865_j65962107732595_1_alg».proof.Proof.ReferenceCell
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the six arguments, the kernel ends with the new hidden state and the new cell state
    of its arguments, and the reference with the same two functions of its own, which are the kernel's. -/
theorem algebraic : Cert.algebraic_KernelIdeal_ReferenceIdeal := by
  intro m ρ m' ρ' _ hagree
  refine ⟨fun c => Cert.KernelIdeal.ArrayValue.hiddenArr m c, fun c => Cert.KernelIdeal.ArrayValue.cellArr m c,
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v54_eq, Cert.ReferenceIdeal.CellValue.hidden_ref, (hagree c).1, (hagree c).2.1,
      (hagree c).2.2.1, (hagree c).2.2.2.1, (hagree c).2.2.2.2.1, (hagree c).2.2.2.2.2]
  · rw [Cert.ReferenceIdeal.Read.val_main_v52_eq, Cert.ReferenceIdeal.CellValue.cell_ref, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
